-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S524288x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S2048x128 : Shape := ⟨2, ![2048, 128]⟩
abbrev S2048x8x16 : Shape := ⟨3, ![2048, 8, 16]⟩
abbrev S2048x16x8 : Shape := ⟨3, ![2048, 16, 8]⟩
abbrev S2048x16x16 : Shape := ⟨3, ![2048, 16, 16]⟩
abbrev S2048x16 : Shape := ⟨2, ![2048, 16]⟩
abbrev S2048x16x1 : Shape := ⟨3, ![2048, 16, 1]⟩

abbrev nBuf : Space → Nat
  | .hbm => 18
  | .vmem => 12
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S524288x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x128_S128x128_1_0 : S128x128.Transposes [1, 0] S128x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S2048x128_S2048x8x16 : S2048x128.ShapeCasts S2048x8x16
  transposes_S2048x8x16_p0_2_1_S2048x16x8 : S2048x8x16.Transposes [0, 2, 1] S2048x16x8
  reduces_S2048x16x16_S2048x16 : S2048x16x16.Reduces [2] S2048x16
  shapeCasts_S2048x16_S2048x16x1 : S2048x16.ShapeCasts S2048x16x1
  broadcasts_S2048x16x1_S2048x16x16 : S2048x16x1.Broadcasts S2048x16x16
  transposes_S2048x16x8_p0_2_1_S2048x8x16 : S2048x16x8.Transposes [0, 2, 1] S2048x8x16
  shapeCasts_S2048x8x16_S2048x128 : S2048x8x16.ShapeCasts S2048x128
  dot_S2048x128_S128x128_S2048x128_1_0_0_1_n_n_wf : DotDims.WF S2048x128 S128x128 S2048x128 [1] [0] [0] [1] [] []
  dot_S2048x16x8_S2048x16x8_S2048x16x16_2_2_1_1_0_0_wf : DotDims.WF S2048x16x8 S2048x16x8 S2048x16x16 [2] [2] [1] [1] [0] [0]
  dot_S2048x16x16_S2048x16x8_S2048x16x8_2_1_1_2_0_0_wf : DotDims.WF S2048x16x16 S2048x16x8 S2048x16x8 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S524288x128.size a
  hwx0_0 : ∀ i : grid0.Coords, EltTy.bits .f32 = 32 ∨ (Rect.block (s := S524288x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S524288x128.size a
  hwx0_9 : ∀ i : grid0.Coords, EltTy.bits .f32 = 32 ∨ (Rect.block (s := S524288x128) S2048x128.size (cc0_transform_9 i) (hinb0_9 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x16x8_S2048x16x8_S2048x16x16_2_2_1_1_0_0 : DotDims S2048x16x8 S2048x16x8 S2048x16x16 where
  lhsContracting := [2]
  rhsContracting := [2]
  lhsNonContracting := [1]
  rhsNonContracting := [1]
  lhsBatch := [0]
  rhsBatch := [0]
  wf := dot_S2048x16x8_S2048x16x8_S2048x16x16_2_2_1_1_0_0_wf
def dot_S2048x16x16_S2048x16x8_S2048x16x8_2_1_1_2_0_0 : DotDims S2048x16x16 S2048x16x8 S2048x16x8 where
  lhsContracting := [2]
  rhsContracting := [1]
  lhsNonContracting := [1]
  rhsNonContracting := [2]
  lhsBatch := [0]
  rhsBatch := [0]
  wf := dot_S2048x16x16_S2048x16x8_S2048x16x8_2_1_1_2_0_0_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S524288x8x16 : Shape := ⟨3, ![524288, 8, 16]⟩
abbrev S524288x16x8 : Shape := ⟨3, ![524288, 16, 8]⟩
abbrev S524288x16x16 : Shape := ⟨3, ![524288, 16, 16]⟩
abbrev S_ : Shape := ⟨0, ![]⟩
abbrev S524288x16 : Shape := ⟨2, ![524288, 16]⟩
abbrev S524288x16x1 : Shape := ⟨3, ![524288, 16, 1]⟩

abbrev nBuf : Space → Nat
  | .hbm => 57
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S524288x128, .f32⟩
  | .hbm, ⟨11, _⟩ => ⟨S1x128, .f32⟩
  | .hbm, ⟨12, _⟩ => ⟨S524288x128, .f32⟩
  | .hbm, ⟨13, _⟩ => ⟨S524288x128, .f32⟩
  | .hbm, ⟨14, _⟩ => ⟨S128x128, .f32⟩
  | .hbm, ⟨15, _⟩ => ⟨S524288x128, .f32⟩
  | .hbm, ⟨16, _⟩ => ⟨S1x128, .f32⟩
  | .hbm, ⟨17, _⟩ => ⟨S524288x128, .f32⟩
  | .hbm, ⟨18, _⟩ => ⟨S524288x128, .f32⟩
  | .hbm, ⟨19, _⟩ => ⟨S128x128, .f32⟩
  | .hbm, ⟨20, _⟩ => ⟨S524288x128, .f32⟩
  | .hbm, ⟨21, _⟩ => ⟨S1x128, .f32⟩
  | .hbm, ⟨22, _⟩ => ⟨S524288x128, .f32⟩
  | .hbm, ⟨23, _⟩ => ⟨S524288x128, .f32⟩
  | .hbm, ⟨24, _⟩ => ⟨S524288x8x16, .f32⟩
  | .hbm, ⟨25, _⟩ => ⟨S524288x16x8, .f32⟩
  | .hbm, ⟨26, _⟩ => ⟨S524288x8x16, .f32⟩
  | .hbm, ⟨27, _⟩ => ⟨S524288x16x8, .f32⟩
  | .hbm, ⟨28, _⟩ => ⟨S524288x8x16, .f32⟩
  | .hbm, ⟨29, _⟩ => ⟨S524288x16x8, .f32⟩
  | .hbm, ⟨30, _⟩ => ⟨S524288x16x16, .f32⟩
  | .hbm, ⟨31, _⟩ => ⟨S_, .f32⟩
  | .hbm, ⟨32, _⟩ => ⟨S_, .f32⟩
  | .hbm, ⟨33, _⟩ => ⟨S524288x16x16, .f32⟩
  | .hbm, ⟨34, _⟩ => ⟨S524288x16x16, .f32⟩
  | .hbm, ⟨35, _⟩ => ⟨S_, .f32⟩
  | .hbm, ⟨36, _⟩ => ⟨S524288x16, .f32⟩
  | .hbm, ⟨37, _⟩ => ⟨S_, .f32⟩
  | .hbm, ⟨38, _⟩ => ⟨S524288x16, .f32⟩
  | .hbm, ⟨39, _⟩ => ⟨S524288x16, .f32⟩
  | .hbm, ⟨40, _⟩ => ⟨S524288x16x1, .f32⟩
  | .hbm, ⟨41, _⟩ => ⟨S524288x16x16, .f32⟩
  | .hbm, ⟨42, _⟩ => ⟨S524288x16x16, .f32⟩
  | .hbm, ⟨43, _⟩ => ⟨S524288x16x16, .f32⟩
  | .hbm, ⟨44, _⟩ => ⟨S_, .f32⟩
  | .hbm, ⟨45, _⟩ => ⟨S524288x16, .f32⟩
  | .hbm, ⟨46, _⟩ => ⟨S524288x16x1, .f32⟩
  | .hbm, ⟨47, _⟩ => ⟨S524288x16x16, .f32⟩
  | .hbm, ⟨48, _⟩ => ⟨S524288x16x16, .f32⟩
  | .hbm, ⟨49, _⟩ => ⟨S524288x16x8, .f32⟩
  | .hbm, ⟨50, _⟩ => ⟨S524288x8x16, .f32⟩
  | .hbm, ⟨51, _⟩ => ⟨S524288x128, .f32⟩
  | .hbm, ⟨52, _⟩ => ⟨S128x128, .f32⟩
  | .hbm, ⟨53, _⟩ => ⟨S524288x128, .f32⟩
  | .hbm, ⟨54, _⟩ => ⟨S1x128, .f32⟩
  | .hbm, ⟨55, _⟩ => ⟨S524288x128, .f32⟩
  | .hbm, ⟨56, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  shapeCasts_S524288x128_S524288x8x16 : S524288x128.ShapeCasts S524288x8x16
  transposes_S524288x8x16_S524288x16x8_0_2_1 : S524288x8x16.Transposes [0, 2, 1] S524288x16x8
  bcast_S_S524288x16x16 : S_.BroadcastsInDim S524288x16x16 (![] : Fin 0 → Fin S524288x16x16.rank)
  reducesTo_S524288x16x16_S524288x16_d2 : S524288x16x16.ReducesTo [2] S524288x16
  h_S_ : 0 < S_.numel
  bcast_S_S524288x16 : S_.BroadcastsInDim S524288x16 (![] : Fin 0 → Fin S524288x16.rank)
  bcast_S524288x16_S524288x16x1_0_1 : S524288x16.BroadcastsInDim S524288x16x1 (![0, 1] : Fin 2 → Fin S524288x16x1.rank)
  bcast_S524288x16x1_S524288x16x16_0_1_2 : S524288x16x1.BroadcastsInDim S524288x16x16 (![0, 1, 2] : Fin 3 → Fin S524288x16x16.rank)
  transposes_S524288x16x8_S524288x8x16_0_2_1 : S524288x16x8.Transposes [0, 2, 1] S524288x8x16
  shapeCasts_S524288x8x16_S524288x128 : S524288x8x16.ShapeCasts S524288x128
  dot_S524288x128_S128x128_S524288x128_1_0_0_1_n_n_wf : DotDims.WF S524288x128 S128x128 S524288x128 [1] [0] [0] [1] [] []
  dot_S524288x16x8_S524288x16x8_S524288x16x16_2_2_1_1_0_0_wf : DotDims.WF S524288x16x8 S524288x16x8 S524288x16x16 [2] [2] [1] [1] [0] [0]
  dot_S524288x16x16_S524288x16x8_S524288x16x8_2_1_1_2_0_0_wf : DotDims.WF S524288x16x16 S524288x16x8 S524288x16x8 [2] [1] [1] [2] [0] [0]

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x16x8_S524288x16x8_S524288x16x16_2_2_1_1_0_0 : DotDims S524288x16x8 S524288x16x8 S524288x16x16 where
  lhsContracting := [2]
  rhsContracting := [2]
  lhsNonContracting := [1]
  rhsNonContracting := [1]
  lhsBatch := [0]
  rhsBatch := [0]
  wf := dot_S524288x16x8_S524288x16x8_S524288x16x16_2_2_1_1_0_0_wf
def dot_S524288x16x16_S524288x16x8_S524288x16x8_2_1_1_2_0_0 : DotDims S524288x16x16 S524288x16x8 S524288x16x8 where
  lhsContracting := [2]
  rhsContracting := [1]
  lhsNonContracting := [1]
  rhsNonContracting := [2]
  lhsBatch := [0]
  rhsBatch := [0]
  wf := dot_S524288x16x16_S524288x16x8_S524288x16x8_2_1_1_2_0_0_wf

class Facts : Prop extends Facts₀ where

variable [Facts]
-- ==== Proof.KernelDots.lean ====
/-
  The kernel's three matrix products read at an index, at the ideal values, each into the zero accumulator:
  a block of 2048 rows times a 128×128 matrix, at (n, j), is ∑ₖ l(n,k) · r(k,j); the stack of score products
  (contracting the 8 groups), at (n, d, e), is ∑_g l(n,d,g) · r(n,e,g); and the stack of mixing products
  (contracting the 16 coordinates), at (n, d, g), is ∑ₑ l(n,d,e) · r(n,e,g).
-/
import proofs.«132842_j37237366456674_1_alg».proof.Proof.Gen.KernelIdeal
import Idealize.ShloMosaic.PureOps.Ideal.Laws
import Idealize.ShloMosaic.Lib.ValueIdx

noncomputable section
namespace Cert.KernelIdeal.Dots
open Cert.KernelIdeal Cert.KernelIdeal.Gen Idealize.ShloMosaic Idealize.ShloMosaic.ValueIdx

/-! ## Rows times a matrix -/

theorem lhsP_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhsP_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhsP_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhsP_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- Rows times a matrix, at (n, j): `∑ k, l (n, k) · r (k, j)`. -/
theorem rowsMat_apply {φ₁ φ₂ : FTy} (l : FVec Ideal S2048x128 φ₁) (r : FVec Ideal S128x128 φ₂) (n : Fin 2048) (j : Fin 128) :
    matmul dot_S2048x128_S128x128_S2048x128_1_0_0_1_n_n none l r (constant S2048x128 .f32 0x00000000#32) (ix2 n j)
      = ∑ k : Fin 128, l (ix2 n k) * r (ix2 k j) := by
  refine (Ideal.matmul_constant_zero_apply dot_S2048x128_S128x128_S2048x128_1_0_0_1_n_n none l r (ix2 n j)).trans ?_
  rw [← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 n j) ((contrEquiv1 dot_S2048x128_S128x128_S2048x128_1_0_0_1_n_n 128 rfl rfl).symm k) = ix2 n k := funext fun a => Fin.ext (by
    match a with
    | ⟨0, _⟩ => exact lhsP_0 _ _
    | ⟨1, _⟩ => exact (lhsP_1 _ _).trans hk)
  have er : dot_S2048x128_S128x128_S2048x128_1_0_0_1_n_n.rhsIdx (ix2 n j) ((contrEquiv1 dot_S2048x128_S128x128_S2048x128_1_0_0_1_n_n 128 rfl rfl).symm k) = ix2 k j := funext fun a => Fin.ext (by
    match a with
    | ⟨0, _⟩ => exact (rhsP_0 _ _).trans hk
    | ⟨1, _⟩ => exact rhsP_1 _ _)
  rw [el, er]

/-! ## The stack of score products -/

theorem lhsS_0 (i : S2048x16x16.Idx) (q : dot_S2048x16x8_S2048x16x8_S2048x16x16_2_2_1_1_0_0.contr.Idx) :
    (dot_S2048x16x8_S2048x16x8_S2048x16x16_2_2_1_1_0_0.lhsIdx i q 0).val = (i 0).val := by
  unfold DotDims.lhsIdx
  rw [dif_pos (show (0 : Fin S2048x16x8.rank) ∈ dot_S2048x16x8_S2048x16x8_S2048x16x16_2_2_1_1_0_0.lhsBatch by decide)]
  rfl
theorem lhsS_1 (i : S2048x16x16.Idx) (q : dot_S2048x16x8_S2048x16x8_S2048x16x16_2_2_1_1_0_0.contr.Idx) :
    (dot_S2048x16x8_S2048x16x8_S2048x16x16_2_2_1_1_0_0.lhsIdx i q 1).val = (i 1).val := by
  unfold DotDims.lhsIdx
  rw [dif_neg (show ¬(1 : Fin S2048x16x8.rank) ∈ dot_S2048x16x8_S2048x16x8_S2048x16x16_2_2_1_1_0_0.lhsBatch by decide), dif_pos (show (1 : Fin S2048x16x8.rank) ∈ dot_S2048x16x8_S2048x16x8_S2048x16x16_2_2_1_1_0_0.lhsNonContracting by decide)]
  rfl
theorem lhsS_2 (i : S2048x16x16.Idx) (q : dot_S2048x16x8_S2048x16x8_S2048x16x16_2_2_1_1_0_0.contr.Idx) :
    (dot_S2048x16x8_S2048x16x8_S2048x16x16_2_2_1_1_0_0.lhsIdx i q 2).val = (q ⟨0, by decide⟩).val :=
  dot_S2048x16x8_S2048x16x8_S2048x16x16_2_2_1_1_0_0.lhsIdx_val_of_single rfl i q
theorem rhsS_0 (i : S2048x16x16.Idx) (q : dot_S2048x16x8_S2048x16x8_S2048x16x16_2_2_1_1_0_0.contr.Idx) :
    (dot_S2048x16x8_S2048x16x8_S2048x16x16_2_2_1_1_0_0.rhsIdx i q 0).val = (i 0).val := by
  unfold DotDims.rhsIdx
  rw [dif_pos (show (0 : Fin S2048x16x8.rank) ∈ dot_S2048x16x8_S2048x16x8_S2048x16x16_2_2_1_1_0_0.rhsBatch by decide)]
  rfl
theorem rhsS_1 (i : S2048x16x16.Idx) (q : dot_S2048x16x8_S2048x16x8_S2048x16x16_2_2_1_1_0_0.contr.Idx) :
    (dot_S2048x16x8_S2048x16x8_S2048x16x16_2_2_1_1_0_0.rhsIdx i q 1).val = (i 2).val := by
  unfold DotDims.rhsIdx
  rw [dif_neg (show ¬(1 : Fin S2048x16x8.rank) ∈ dot_S2048x16x8_S2048x16x8_S2048x16x16_2_2_1_1_0_0.rhsBatch by decide), dif_pos (show (1 : Fin S2048x16x8.rank) ∈ dot_S2048x16x8_S2048x16x8_S2048x16x16_2_2_1_1_0_0.rhsNonContracting by decide)]
  rfl
theorem rhsS_2 (i : S2048x16x16.Idx) (q : dot_S2048x16x8_S2048x16x8_S2048x16x16_2_2_1_1_0_0.contr.Idx) :
    (dot_S2048x16x8_S2048x16x8_S2048x16x16_2_2_1_1_0_0.rhsIdx i q 2).val = (q ⟨0, by decide⟩).val :=
  dot_S2048x16x8_S2048x16x8_S2048x16x16_2_2_1_1_0_0.rhsIdx_val_of_single rfl i q

/-- The score products, at (n, d, e): `∑ g, l (n, d, g) · r (n, e, g)`. -/
theorem scores_apply {φ₁ φ₂ : FTy} (l : FVec Ideal S2048x16x8 φ₁) (r : FVec Ideal S2048x16x8 φ₂) (n : Fin 2048) (d e : Fin 16) :
    matmul dot_S2048x16x8_S2048x16x8_S2048x16x16_2_2_1_1_0_0 none l r (constant S2048x16x16 .f32 0x00000000#32) (ix3 n d e)
      = ∑ g : Fin 8, l (ix3 n d g) * r (ix3 n e g) := by
  refine (Ideal.matmul_constant_zero_apply dot_S2048x16x8_S2048x16x8_S2048x16x16_2_2_1_1_0_0 none l r (ix3 n d e)).trans ?_
  rw [← Equiv.sum_comp (contrEquiv1 dot_S2048x16x8_S2048x16x8_S2048x16x16_2_2_1_1_0_0 8 rfl rfl).symm]
  refine Finset.sum_congr rfl fun k _ => ?_
  have hk := contrEquiv1_symm_val dot_S2048x16x8_S2048x16x8_S2048x16x16_2_2_1_1_0_0 8 rfl rfl k
  have el : dot_S2048x16x8_S2048x16x8_S2048x16x16_2_2_1_1_0_0.lhsIdx (ix3 n d e) ((contrEquiv1 dot_S2048x16x8_S2048x16x8_S2048x16x16_2_2_1_1_0_0 8 rfl rfl).symm k) = ix3 n d k := funext fun a => Fin.ext (by
    match a with
    | ⟨0, _⟩ => exact lhsS_0 _ _
    | ⟨1, _⟩ => exact lhsS_1 _ _
    | ⟨2, _⟩ => exact (lhsS_2 _ _).trans hk)
  have er : dot_S2048x16x8_S2048x16x8_S2048x16x16_2_2_1_1_0_0.rhsIdx (ix3 n d e) ((contrEquiv1 dot_S2048x16x8_S2048x16x8_S2048x16x16_2_2_1_1_0_0 8 rfl rfl).symm k) = ix3 n e k := funext fun a => Fin.ext (by
    match a with
    | ⟨0, _⟩ => exact rhsS_0 _ _
    | ⟨1, _⟩ => exact rhsS_1 _ _
    | ⟨2, _⟩ => exact (rhsS_2 _ _).trans hk)
  rw [el, er]

/-! ## The stack of mixing products -/

theorem lhsM_0 (i : S2048x16x8.Idx) (q : dot_S2048x16x16_S2048x16x8_S2048x16x8_2_1_1_2_0_0.contr.Idx) :
    (dot_S2048x16x16_S2048x16x8_S2048x16x8_2_1_1_2_0_0.lhsIdx i q 0).val = (i 0).val := by
  unfold DotDims.lhsIdx
  rw [dif_pos (show (0 : Fin S2048x16x16.rank) ∈ dot_S2048x16x16_S2048x16x8_S2048x16x8_2_1_1_2_0_0.lhsBatch by decide)]
  rfl
theorem lhsM_1 (i : S2048x16x8.Idx) (q : dot_S2048x16x16_S2048x16x8_S2048x16x8_2_1_1_2_0_0.contr.Idx) :
    (dot_S2048x16x16_S2048x16x8_S2048x16x8_2_1_1_2_0_0.lhsIdx i q 1).val = (i 1).val := by
  unfold DotDims.lhsIdx
  rw [dif_neg (show ¬(1 : Fin S2048x16x16.rank) ∈ dot_S2048x16x16_S2048x16x8_S2048x16x8_2_1_1_2_0_0.lhsBatch by decide), dif_pos (show (1 : Fin S2048x16x16.rank) ∈ dot_S2048x16x16_S2048x16x8_S2048x16x8_2_1_1_2_0_0.lhsNonContracting by decide)]
  rfl
theorem lhsM_2 (i : S2048x16x8.Idx) (q : dot_S2048x16x16_S2048x16x8_S2048x16x8_2_1_1_2_0_0.contr.Idx) :
    (dot_S2048x16x16_S2048x16x8_S2048x16x8_2_1_1_2_0_0.lhsIdx i q 2).val = (q ⟨0, by decide⟩).val :=
  dot_S2048x16x16_S2048x16x8_S2048x16x8_2_1_1_2_0_0.lhsIdx_val_of_single rfl i q
theorem rhsM_0 (i : S2048x16x8.Idx) (q : dot_S2048x16x16_S2048x16x8_S2048x16x8_2_1_1_2_0_0.contr.Idx) :
    (dot_S2048x16x16_S2048x16x8_S2048x16x8_2_1_1_2_0_0.rhsIdx i q 0).val = (i 0).val := by
  unfold DotDims.rhsIdx
  rw [dif_pos (show (0 : Fin S2048x16x8.rank) ∈ dot_S2048x16x16_S2048x16x8_S2048x16x8_2_1_1_2_0_0.rhsBatch by decide)]
  rfl
theorem rhsM_1 (i : S2048x16x8.Idx) (q : dot_S2048x16x16_S2048x16x8_S2048x16x8_2_1_1_2_0_0.contr.Idx) :
    (dot_S2048x16x16_S2048x16x8_S2048x16x8_2_1_1_2_0_0.rhsIdx i q 1).val = (q ⟨0, by decide⟩).val :=
  dot_S2048x16x16_S2048x16x8_S2048x16x8_2_1_1_2_0_0.rhsIdx_val_of_single rfl i q
theorem rhsM_2 (i : S2048x16x8.Idx) (q : dot_S2048x16x16_S2048x16x8_S2048x16x8_2_1_1_2_0_0.contr.Idx) :
    (dot_S2048x16x16_S2048x16x8_S2048x16x8_2_1_1_2_0_0.rhsIdx i q 2).val = (i 2).val := by
  unfold DotDims.rhsIdx
  rw [dif_neg (show ¬(2 : Fin S2048x16x8.rank) ∈ dot_S2048x16x16_S2048x16x8_S2048x16x8_2_1_1_2_0_0.rhsBatch by decide), dif_pos (show (2 : Fin S2048x16x8.rank) ∈ dot_S2048x16x16_S2048x16x8_S2048x16x8_2_1_1_2_0_0.rhsNonContracting by decide)]
  rfl

/-- The mixing products, at (n, d, g): `∑ e, l (n, d, e) · r (n, e, g)`. -/
theorem mix_apply {φ₁ φ₂ : FTy} (l : FVec Ideal S2048x16x16 φ₁) (r : FVec Ideal S2048x16x8 φ₂) (n : Fin 2048) (d : Fin 16) (g : Fin 8) :
    matmul dot_S2048x16x16_S2048x16x8_S2048x16x8_2_1_1_2_0_0 none l r (constant S2048x16x8 .f32 0x00000000#32) (ix3 n d g)
      = ∑ e : Fin 16, l (ix3 n d e) * r (ix3 n e g) := by
  refine (Ideal.matmul_constant_zero_apply dot_S2048x16x16_S2048x16x8_S2048x16x8_2_1_1_2_0_0 none l r (ix3 n d g)).trans ?_
  rw [← Equiv.sum_comp (contrEquiv1 dot_S2048x16x16_S2048x16x8_S2048x16x8_2_1_1_2_0_0 16 rfl rfl).symm]
  refine Finset.sum_congr rfl fun k _ => ?_
  have hk := contrEquiv1_symm_val dot_S2048x16x16_S2048x16x8_S2048x16x8_2_1_1_2_0_0 16 rfl rfl k
  have el : dot_S2048x16x16_S2048x16x8_S2048x16x8_2_1_1_2_0_0.lhsIdx (ix3 n d g) ((contrEquiv1 dot_S2048x16x16_S2048x16x8_S2048x16x8_2_1_1_2_0_0 16 rfl rfl).symm k) = ix3 n d k := funext fun a => Fin.ext (by
    match a with
    | ⟨0, _⟩ => exact lhsM_0 _ _
    | ⟨1, _⟩ => exact lhsM_1 _ _
    | ⟨2, _⟩ => exact (lhsM_2 _ _).trans hk)
  have er : dot_S2048x16x16_S2048x16x8_S2048x16x8_2_1_1_2_0_0.rhsIdx (ix3 n d g) ((contrEquiv1 dot_S2048x16x16_S2048x16x8_S2048x16x8_2_1_1_2_0_0 16 rfl rfl).symm k) = ix3 n k g := funext fun a => Fin.ext (by
    match a with
    | ⟨0, _⟩ => exact rhsM_0 _ _
    | ⟨1, _⟩ => exact (rhsM_1 _ _).trans hk
    | ⟨2, _⟩ => exact rhsM_2 _ _)
  rw [el, er]

end Cert.KernelIdeal.Dots
end
-- ==== Proof.LibStack.lean ====
/-
  General lemmas for reading STACKS of small matrices at an index: an array of N rows whose feature axis of
  length 128 is viewed as 8 groups of 16 coordinates (and back), a trailing unit axis added to an [a, b] array and
  broadcast along a last axis of length c, and a sum or a maximum along the last axis of an [a, b, c] array, each
  read at the index built by `ix2` / `ix3`. Nothing here mentions a particular program.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section
namespace Cert.LibStack
open Idealize.ShloMosaic Idealize.ShloMosaic.ValueIdx

variable {α : Type}

/-! ## A feature axis of 128 as 8 groups of 16 -/

/-- The feature index of group `g`, coordinate `d`: `16 g + d`. -/
abbrev gd (g : Fin 8) (d : Fin 16) : Fin 128 := ⟨g.val * 16 + d.val, by have := g.isLt; have := d.isLt; omega⟩
/-- The group of a feature index. -/
abbrev grp (k : Fin 128) : Fin 8 := ⟨k.val / 16, by have := k.isLt; omega⟩
/-- The coordinate of a feature index inside its group. -/
abbrev crd (k : Fin 128) : Fin 16 := ⟨k.val % 16, Nat.mod_lt _ (by decide)⟩

/-- Every feature index is the one of its group and coordinate. -/
theorem gd_grp_crd (k : Fin 128) : gd (grp k) (crd k) = k :=
  Fin.ext (by show k.val / 16 * 16 + k.val % 16 = k.val; omega)

/-- An [N, 128] array viewed as [N, 8, 16] reads, at (n, g, d), the array at (n, 16 g + d). -/
theorem shapeCast_split_apply {N : ℕ} (v : (⟨2, ![N, 128]⟩ : Shape).Idx → α)
    (h : (⟨2, ![N, 128]⟩ : Shape).ShapeCasts ⟨3, ![N, 8, 16]⟩) (n : Fin N) (g : Fin 8) (d : Fin 16) :
    shapeCast ⟨3, ![N, 8, 16]⟩ v h (ix3 n g d) = v (ix2 n (gd g d)) :=
  shapeCast_apply v h _ _ (by
    rw [Shape.rowMajor_val_two, Shape.rowMajor_val_three]
    show n.val * 128 + (g.val * 16 + d.val) = (n.val * 8 + g.val) * 16 + d.val
    omega)

/-- An [N, 8, 16] array viewed as [N, 128] reads, at (n, 16 g + d), the array at (n, g, d). -/
theorem shapeCast_merge_apply {N : ℕ} (v : (⟨3, ![N, 8, 16]⟩ : Shape).Idx → α)
    (h : (⟨3, ![N, 8, 16]⟩ : Shape).ShapeCasts ⟨2, ![N, 128]⟩) (n : Fin N) (g : Fin 8) (d : Fin 16) :
    shapeCast ⟨2, ![N, 128]⟩ v h (ix2 n (gd g d)) = v (ix3 n g d) :=
  shapeCast_apply v h _ _ (by
    rw [Shape.rowMajor_val_two, Shape.rowMajor_val_three]
    show (n.val * 8 + g.val) * 16 + d.val = n.val * 128 + (g.val * 16 + d.val)
    omega)

/-- The same at any feature index `k`: the array at (n, group of k, coordinate of k). -/
theorem shapeCast_merge_apply' {N : ℕ} (v : (⟨3, ![N, 8, 16]⟩ : Shape).Idx → α)
    (h : (⟨3, ![N, 8, 16]⟩ : Shape).ShapeCasts ⟨2, ![N, 128]⟩) (n : Fin N) (k : Fin 128) :
    shapeCast ⟨2, ![N, 128]⟩ v h (ix2 n k) = v (ix3 n (grp k) (crd k)) := by
  have e := shapeCast_merge_apply v h n (grp k) (crd k)
  rwa [gd_grp_crd] at e

/-! ## A trailing unit axis -/

/-- An [a, b] array viewed as [a, b, 1] reads, at (p, q, u), the array at (p, q). -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) :=
  shapeCast_apply v h _ _ (by
    have hu : u.val = 0 := by omega
    rw [Shape.rowMajor_val_two, Shape.rowMajor_val_three]
    show p.val * b + q.val = (p.val * b + q.val) * 1 + u.val
    rw [hu, Nat.mul_one, Nat.add_zero])

/-- An [a, b, 1] array broadcast to [a, b, c] reads, at (p, q, r), the array at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## Reductions along the last axis of an [a, b, c] array -/

/-- The index (p, q) with coordinate `k` put back on the last axis is (p, q, k). -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext x; apply Fin.ext
  fin_cases x <;> rfl

/-- A sum along the last axis at (p, q): `∑ k, src (p, q, k)`. -/
theorem multiReduction_add_last {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

/-- A maximum along the last axis at (p, q): the fold of max from the accumulator's value over (p, q, ·). -/
theorem multiReduction_max_last {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (fun f => Finset.fold max (Ideal.ofBits φ acc) f (Finset.univ : Finset (Fin c)))
    (funext fun k => congrArg src (lift_last h p q k))

/-- The host's maximum along the last axis at (p, q): the fold of max from the initial value over (p, q, ·). -/
theorem hostReduceMax_last {a b c : ℕ} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  rw [Host.reduce_eq_fold_single FloatOps.maximumf x init h' h hu]
  exact congrArg (fun f => Finset.fold max (init (Shape.Idx.first hu)) f (Finset.univ : Finset (Fin c)))
    (funext fun k => congrArg x (lift_last h p q k))

end Cert.LibStack
end
-- ==== Proof.RowSpec.lean ====
/-
  What both programs compute, row by row, at the ideal values (extended reals, every operation exact).

  A row x of 128 features goes through three affine maps q = x·Wqᵀ + bq, k = x·Wkᵀ + bk, v = x·Wvᵀ + bv. The 128
  features are 8 groups of 16 coordinates. For coordinates d, e the raw score is the sum over the 8 groups g of
  q(16g+d) · k(16g+e); it is scaled, and for each d the 16 scaled scores go through a softmax over e (shifted by
  their maximum). The mixed value at feature 16g+d is ∑ₑ softmax(d, e) · v(16g+e), and the result is one more
  affine map of the mixed row, by Wo and bo.

  The two programs differ in one place only: one multiplies the raw score by the constant ¼, the other divides it
  by √16. On the extended reals division by the nonzero real 4 IS multiplication by ¼, infinities included, so the two
  scalings are one function (`scale_eq`) and no finiteness of any input is needed.
-/
import Idealize.ShloMosaic.PureOps.Ideal
import Idealize.ShloMosaic.Lib.ValueIdx
import proofs.«132842_j37237366456674_1_alg».proof.Proof.LibStack

noncomputable section
namespace Cert.RowSpec
open Idealize.ShloMosaic Idealize.ShloMosaic.ValueIdx Cert.LibStack

/-! ## The row function -/

/-- One affine map of a feature row: `y j = ∑ k, x k · W j k + b j` (the first argument of `W` indexes the outputs). -/
def lin (x : Fin 128 → EReal) (W : Fin 128 → Fin 128 → EReal) (b : Fin 128 → EReal) (j : Fin 128) : EReal :=
  (∑ k : Fin 128, x k * W j k) + b j

/-- The raw score of coordinates `d`, `e`: the sum over the 8 groups of q(16g+d) · k(16g+e). -/
def dots (q k : Fin 128 → EReal) (d e : Fin 16) : EReal := ∑ g : Fin 8, q (gd g d) * k (gd g e)

/-- −∞, by the word both programs spell it with. -/
abbrev negInf : EReal := Ideal.ofBits .f32 0xFF800000#32

/-- The maximum of 16 scores, as both programs take it: folded from −∞, then once more against −∞. -/
def rmax (s : Fin 16 → EReal) : EReal := max negInf ((Finset.univ : Finset (Fin 16)).fold max negInf s)

/-- The shifted exponential of score `e`. -/
def pexp (s : Fin 16 → EReal) (e : Fin 16) : EReal := Ideal.exp (s e - rmax s)

/-- The softmax of 16 scores at `e`. -/
def soft (s : Fin 16 → EReal) (e : Fin 16) : EReal := Ideal.div (pexp s e) (∑ e' : Fin 16, pexp s e')

/-- The mixed value at feature `k = 16g + d`: `∑ e, a d e · v (16g + e)`. -/
def mixv (a : Fin 16 → Fin 16 → EReal) (v : Fin 128 → EReal) (k : Fin 128) : EReal :=
  ∑ e : Fin 16, a (crd k) e * v (gd (grp k) e)

/-- The whole row function, for a given scaling of the raw scores. -/
def row (scale : EReal → EReal) (x : Fin 128 → EReal)
    (Wq : Fin 128 → Fin 128 → EReal) (bq : Fin 128 → EReal)
    (Wk : Fin 128 → Fin 128 → EReal) (bk : Fin 128 → EReal)
    (Wv : Fin 128 → Fin 128 → EReal) (bv : Fin 128 → EReal)
    (Wo : Fin 128 → Fin 128 → EReal) (bo : Fin 128 → EReal) : Fin 128 → EReal :=
  lin (mixv (fun d => soft (fun e => scale (dots (lin x Wq bq) (lin x Wk bk) d e))) (lin x Wv bv)) Wo bo

/-! ## The two scalings are one function -/

/-- Multiplying by the word for ¼. -/
def scaleMul (s : EReal) : EReal := s * Ideal.ofBits .f32 0x3E800000#32

/-- Dividing by the square root of the word for 16. -/
def scaleDiv (s : EReal) : EReal := Ideal.div s (Ideal.sqrt (Ideal.ofBits .f32 0x41800000#32))

/-- The word 0x3E800000 denotes the real ¼. -/
theorem ofBits_quarter : Ideal.ofBits .f32 0x3E800000#32 = ((1 / 4 : ℝ) : EReal) := by
  simp [Ideal.ofBits, Ideal.ieee, -EReal.coe_mul]; norm_num

/-- The word 0x41800000 denotes the real 16. -/
theorem ofBits_sixteen : Ideal.ofBits .f32 0x41800000#32 = ((16 : ℝ) : EReal) := by
  simp [Ideal.ofBits, Ideal.ieee, -EReal.coe_mul]; norm_num

/-- √16 = 4. -/
theorem sqrt_sixteen : Ideal.sqrt ((16 : ℝ) : EReal) = ((4 : ℝ) : EReal) := by
  rw [Ideal.sqrt_coe, if_neg (by norm_num)]
  congr 1
  rw [show (16 : ℝ) = 4 ^ 2 by norm_num, Real.sqrt_sq (by norm_num)]

/-- Dividing by √16 is multiplying by ¼, on every extended real. -/
theorem scale_eq : scaleDiv = scaleMul := by
  funext s
  unfold scaleDiv scaleMul
  rw [ofBits_sixteen, sqrt_sixteen, ofBits_quarter, Ideal.div_coe (by norm_num : (4 : ℝ) ≠ 0)]

/-! ## The whole array -/

/-- The result array as one function of the nine argument arrays: row `n` of the result is the row function of
    row `n` of `x`. -/
def G (scale : EReal → EReal) (x : FVec Ideal ⟨2, ![524288, 128]⟩ .f32)
    (Wq : FVec Ideal ⟨2, ![128, 128]⟩ .f32) (bq : FVec Ideal ⟨1, ![128]⟩ .f32)
    (Wk : FVec Ideal ⟨2, ![128, 128]⟩ .f32) (bk : FVec Ideal ⟨1, ![128]⟩ .f32)
    (Wv : FVec Ideal ⟨2, ![128, 128]⟩ .f32) (bv : FVec Ideal ⟨1, ![128]⟩ .f32)
    (Wo : FVec Ideal ⟨2, ![128, 128]⟩ .f32) (bo : FVec Ideal ⟨1, ![128]⟩ .f32) :
    FVec Ideal ⟨2, ![524288, 128]⟩ .f32 :=
  fun i => row scale (fun k => x (ix2 (⟨(i 0).val, idx2_lt0 i⟩ : Fin 524288) k))
    (fun j k => Wq (ix2 j k)) (fun j => bq (ix1 j)) (fun j k => Wk (ix2 j k)) (fun j => bk (ix1 j))
    (fun j k => Wv (ix2 j k)) (fun j => bv (ix1 j)) (fun j k => Wo (ix2 j k)) (fun j => bo (ix1 j))
    (⟨(i 1).val, idx2_lt1 i⟩ : Fin 128)

theorem G_apply (scale : EReal → EReal) (x : FVec Ideal ⟨2, ![524288, 128]⟩ .f32)
    (Wq : FVec Ideal ⟨2, ![128, 128]⟩ .f32) (bq : FVec Ideal ⟨1, ![128]⟩ .f32)
    (Wk : FVec Ideal ⟨2, ![128, 128]⟩ .f32) (bk : FVec Ideal ⟨1, ![128]⟩ .f32)
    (Wv : FVec Ideal ⟨2, ![128, 128]⟩ .f32) (bv : FVec Ideal ⟨1, ![128]⟩ .f32)
    (Wo : FVec Ideal ⟨2, ![128, 128]⟩ .f32) (bo : FVec Ideal ⟨1, ![128]⟩ .f32) (n : Fin 524288) (j : Fin 128) :
    G scale x Wq bq Wk bk Wv bv Wo bo (ix2 n j)
      = row scale (fun k => x (ix2 n k)) (fun j k => Wq (ix2 j k)) (fun j => bq (ix1 j)) (fun j k => Wk (ix2 j k))
          (fun j => bk (ix1 j)) (fun j k => Wv (ix2 j k)) (fun j => bv (ix1 j)) (fun j k => Wo (ix2 j k))
          (fun j => bo (ix1 j)) j := rfl

end Cert.RowSpec
end
-- ==== Proof.KernelRow.lean ====
/-
  The kernel body's value at one entry, at the ideal values. From a block X of 2048 rows, the four weight blocks
  A, B, C, D (each already the transpose of its weight matrix, so an affine map reads them at (k, j)) and the four
  bias rows, the body computes at (n, j) exactly the row function of row n of X: three affine maps, the scores
  contracted over the 8 groups and multiplied by ¼, the shifted softmax over the 16 coordinates, the mixing with
  the values, and the last affine map.
-/
import proofs.«132842_j37237366456674_1_alg».proof.Proof.Gen.KernelIdeal.Skeleton
import proofs.«132842_j37237366456674_1_alg».proof.Proof.KernelDots
import proofs.«132842_j37237366456674_1_alg».proof.Proof.RowSpec

noncomputable section
namespace Cert.KernelIdeal.RowValue
open Cert.KernelIdeal Cert.KernelIdeal.Gen Idealize.ShloMosaic Idealize.ShloMosaic.ValueIdx Cert.LibStack Cert.RowSpec

/-- The exponential of a vector, at an index. -/
theorem exp_apply {s : Shape} {φ : FTy} (a : FVec Ideal s φ) (i : s.Idx) : exp a i = Ideal.exp (a i) := rfl

/-- The per-row transposition of the stack of 8×16 matrices, at (n, d, g): the operand at (n, g, d). -/
theorem swapIn_apply (v : FVec Ideal S2048x8x16 .f32) (n : Fin 2048) (d : Fin 16) (g : Fin 8) :
    transpose S2048x16x8 [0, 2, 1] v transposes_S2048x8x16_p0_2_1_S2048x16x8 (ix3 n d g) = v (ix3 n g d) :=
  transpose_ix3_021_apply v transposes_S2048x8x16_p0_2_1_S2048x16x8 n d g

/-- … and of the stack of 16×8 matrices, at (n, g, d): the operand at (n, d, g). -/
theorem swapOut_apply (v : FVec Ideal S2048x16x8 .f32) (n : Fin 2048) (g : Fin 8) (d : Fin 16) :
    transpose S2048x8x16 [0, 2, 1] v transposes_S2048x16x8_p0_2_1_S2048x8x16 (ix3 n g d) = v (ix3 n d g) :=
  transpose_ix3_021_apply v transposes_S2048x16x8_p0_2_1_S2048x8x16 n g d

/-- The lane sum of a stack of 16×16 matrices along its last axis, at (n, d). -/
theorem laneSum_apply (src : FVec Ideal S2048x16x16 .f32) (n : Fin 2048) (d : Fin 16) :
    multiReduction .add [2] S2048x16 src 0x00000000#32 reduces_S2048x16x16_S2048x16 (.inl rfl) rfl (ix2 n d)
      = ∑ e : Fin 16, src (ix3 n d e) :=
  multiReduction_add_last src 0x00000000#32 reduces_S2048x16x16_S2048x16 (.inl rfl) rfl n d

/-- The lane maximum of the same stack, at (n, d): folded from −∞. -/
theorem laneMax_apply (src : FVec Ideal S2048x16x16 .f32) (n : Fin 2048) (d : Fin 16) :
    multiReduction .maximumf [2] S2048x16 src 0xFF800000#32 reduces_S2048x16x16_S2048x16 (.inl rfl) rfl (ix2 n d)
      = (Finset.univ : Finset (Fin 16)).fold max negInf (fun e => src (ix3 n d e)) :=
  multiReduction_max_last src 0xFF800000#32 reduces_S2048x16x16_S2048x16 (.inl rfl) rfl n d

/-- The scaled scores: at (n, d, e), ¼ of the raw score of the two affine images of row n. -/
theorem scores_eq (X : FVec Ideal S2048x128 .f32) (A B : FVec Ideal S128x128 .f32) (a b : FVec Ideal S1x128 .f32)
    (n : Fin 2048) (d e : Fin 16) :
    k0_pay5 (F := Ideal) X A B a b (ix3 n d e)
      = scaleMul (dots (lin (fun k => X (ix2 n k)) (fun j k => A (ix2 k j)) (fun j => a (ix2 (0 : Fin 1) j)))
          (lin (fun k => X (ix2 n k)) (fun j k => B (ix2 k j)) (fun j => b (ix2 (0 : Fin 1) j))) d e) := by
  unfold k0_pay5 k0_pay2 scaleMul dots lin
  simp only [mulf_apply, broadcast_apply, Dots.scores_apply]
  refine congrArg₂ (· * ·) (Finset.sum_congr rfl fun g _ => ?_) rfl
  rw [swapIn_apply, swapIn_apply]
  simp only [shapeCast_split_apply, addf_apply, Dots.rowsMat_apply, broadcastTo_1b_ab_apply, shapeCast_self, truncf_apply]

/-- The values, laid out for the mixing product: at (n, e, g), the affine image of row n at feature 16g + e. -/
theorem values_eq (X : FVec Ideal S2048x128 .f32) (C : FVec Ideal S128x128 .f32) (c : FVec Ideal S1x128 .f32)
    (n : Fin 2048) (e : Fin 16) (g : Fin 8) :
    k0_pay4 (F := Ideal) X C c (ix3 n e g)
      = lin (fun k => X (ix2 n k)) (fun j k => C (ix2 k j)) (fun j => c (ix2 (0 : Fin 1) j)) (gd g e) := by
  unfold k0_pay4 k0_pay2 lin
  rw [swapIn_apply]
  simp only [shapeCast_split_apply, addf_apply, Dots.rowsMat_apply, broadcastTo_1b_ab_apply, shapeCast_self, truncf_apply]

/-- The last weight block passes through unchanged. -/
theorem wout_eq (D : FVec Ideal S128x128 .f32) (k j : Fin 128) : k0_pay3 (F := Ideal) D (ix2 k j) = D (ix2 k j) := by
  unfold k0_pay3
  simp only [shapeCast_self, truncf_apply]

/-- From scaled scores `S`, values `V` and the last weight block `W`: softmax, mixing, and the last affine map. -/
theorem tail_eq (W : FVec Ideal S128x128 .bf16) (V : FVec Ideal S2048x16x8 .f32) (S : FVec Ideal S2048x16x16 .f32)
    (o : FVec Ideal S1x128 .f32) (n : Fin 2048) (j : Fin 128) :
    k0_pay1 (F := Ideal) W V S o (ix2 n j)
      = (∑ k : Fin 128, (∑ e : Fin 16, soft (fun e' => S (ix3 n (crd k) e')) e * V (ix3 n e (grp k))) * W (ix2 k j))
          + o (ix2 (0 : Fin 1) j) := by
  unfold k0_pay1 soft pexp rmax
  simp only [addf_apply, Dots.rowsMat_apply, truncf_apply, shapeCast_merge_apply']
  refine congrArg₂ (· + ·) (Finset.sum_congr rfl fun k _ => congrArg (· * _) ?_) ?_
  · rw [swapOut_apply]
    simp only [Dots.mix_apply, divf_apply, exp_apply, subf_apply, broadcastTo_ab1_abc_apply, shapeCast_ab_ab1_apply,
      maximumf_apply, broadcast_apply]
    rw [laneSum_apply]
    simp only [exp_apply, subf_apply, broadcastTo_ab1_abc_apply, shapeCast_ab_ab1_apply, maximumf_apply, broadcast_apply]
    rw [laneMax_apply]
    rfl
  · simp only [broadcastTo_1b_ab_apply, shapeCast_self]

/-- The body's stored value at (n, j) is the row function of row n of the block. -/
theorem body_eq (X : FVec Ideal S2048x128 .f32) (A : FVec Ideal S128x128 .f32) (a : FVec Ideal S1x128 .f32)
    (B : FVec Ideal S128x128 .f32) (b : FVec Ideal S1x128 .f32) (C : FVec Ideal S128x128 .f32) (c : FVec Ideal S1x128 .f32)
    (D : FVec Ideal S128x128 .f32) (o : FVec Ideal S1x128 .f32) (n : Fin 2048) (j : Fin 128) :
    k0_pay1 (F := Ideal) (k0_pay3 D) (k0_pay4 X C c) (k0_pay5 X A B a b) o (ix2 n j)
      = row scaleMul (fun k => X (ix2 n k)) (fun j k => A (ix2 k j)) (fun j => a (ix2 (0 : Fin 1) j))
          (fun j k => B (ix2 k j)) (fun j => b (ix2 (0 : Fin 1) j)) (fun j k => C (ix2 k j)) (fun j => c (ix2 (0 : Fin 1) j))
          (fun j k => D (ix2 k j)) (fun j => o (ix2 (0 : Fin 1) j)) j := by
  rw [tail_eq]
  unfold row
  simp only [scores_eq, values_eq, wout_eq]
  rfl

end Cert.KernelIdeal.RowValue
end
-- ==== Proof.KernelArray.lean ====
/-
  From blocks to the array. Grid point t stages rows 2048·t … 2048·t + 2047 of x and the whole of each weight and
  bias array, and writes back rows 2048·t … of the result. The weight arrays the region finds are the transposes of
  the argument matrices and the bias arrays their one-row views, so the body's value at (r, j) of block t is the row
  function of row 2048·t + r of x with the argument weights and biases: block t of the one whole-array function. The
  256 blocks cover the result array, so after the run the array is that function.
-/
import proofs.«132842_j37237366456674_1_alg».proof.Proof.Gen.KernelIdeal.Value
import proofs.«132842_j37237366456674_1_alg».proof.Proof.KernelRow

noncomputable section
namespace Cert.KernelIdeal.ArrayValue
open Cert.KernelIdeal Cert.KernelIdeal.Gen Idealize.ShloMosaic Idealize.ShloMosaic.TcCoe Idealize.SL.Sem
  Idealize.ShloMosaic.ValueIdx Cert.LibStack Cert.RowSpec
open Idealize.ShloMosaic.Pipeline (Dat)

variable (m : (ℓ : Loc nD τ sig) → Buf (Elt Ideal) ℓ) (ρ : Dev nD → PrngReg)

/-- The result array as one function of the argument arrays, the scores multiplied by ¼. -/
abbrev Gk (c : Dev nD) : FVec Ideal S524288x128 .f32 :=
  G scaleMul (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-! ## What the region finds in the arrays the host wrote -/

theorem V_wq (c : Dev nD) : (V m c main_v0 : S128x128.Idx → EReal)
    = transpose S128x128 [1, 0] (m ((c : Thread nD τ).loc main_arg1)) transposes_S128x128_S128x128_1_0 := by
  dsimp only [Gen.V, Gen.hostOps0]; after_results
theorem V_wk (c : Dev nD) : (V m c main_v1 : S128x128.Idx → EReal)
    = transpose S128x128 [1, 0] (m ((c : Thread nD τ).loc main_arg3)) transposes_S128x128_S128x128_1_0 := by
  dsimp only [Gen.V, Gen.hostOps0]; after_results
theorem V_wv (c : Dev nD) : (V m c main_v2 : S128x128.Idx → EReal)
    = transpose S128x128 [1, 0] (m ((c : Thread nD τ).loc main_arg5)) transposes_S128x128_S128x128_1_0 := by
  dsimp only [Gen.V, Gen.hostOps0]; after_results
theorem V_wo (c : Dev nD) : (V m c main_v3 : S128x128.Idx → EReal)
    = transpose S128x128 [1, 0] (m ((c : Thread nD τ).loc main_arg7)) transposes_S128x128_S128x128_1_0 := by
  dsimp only [Gen.V, Gen.hostOps0]; after_results
theorem V_bq (c : Dev nD) : (V m c main_v4 : S1x128.Idx → EReal)
    = shapeCast S1x128 (m ((c : Thread nD τ).loc main_arg2)) shapeCasts_S128_S1x128 := by
  dsimp only [Gen.V, Gen.hostOps0]; after_results; rfl
theorem V_bk (c : Dev nD) : (V m c main_v5 : S1x128.Idx → EReal)
    = shapeCast S1x128 (m ((c : Thread nD τ).loc main_arg4)) shapeCasts_S128_S1x128 := by
  dsimp only [Gen.V, Gen.hostOps0]; after_results; rfl
theorem V_bv (c : Dev nD) : (V m c main_v6 : S1x128.Idx → EReal)
    = shapeCast S1x128 (m ((c : Thread nD τ).loc main_arg6)) shapeCasts_S128_S1x128 := by
  dsimp only [Gen.V, Gen.hostOps0]; after_results; rfl
theorem V_bo (c : Dev nD) : (V m c main_v7 : S1x128.Idx → EReal)
    = shapeCast S1x128 (m ((c : Thread nD τ).loc main_arg8)) shapeCasts_S128_S1x128 := by
  dsimp only [Gen.V, Gen.hostOps0]; after_results; rfl

/-! ## Where each window's block sits -/

/-- The printed index maps, decided over the 256 points: the blocks of x and of the result move with the point
    along the rows; every weight and bias window stays at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Each input block, read at an entry -/

/-- Row r of block t of x is row 2048·t + r of x. -/
theorem xblk_apply (c : Dev nD) (t : Fin cfg0.N) (r : Fin 2048) (k : Fin 128) (hr : t.val * 2048 + r.val < 524288) :
    iblk m c 0 t (ix2 r k) = m ((c : Thread nD τ).loc main_arg0) (ix2 (⟨t.val * 2048 + r.val, hr⟩ : Fin 524288) k) := by
  show V m c main_arg0 (((cfg0.win 0).blk t).view.emb (ix2 r k)) = _
  rw [V_main_arg0]
  refine congrArg _ (funext fun a => Fin.ext ?_)
  obtain ⟨e0, e1, -⟩ := idx_facts t
  match a with
  | ⟨0, _⟩ => show win0_0.index t (0 : Fin 2) * 2048 + 1 * r.val = t.val * 2048 + r.val; omega
  | ⟨1, _⟩ => show win0_0.index t (1 : Fin 2) * 128 + 1 * k.val = k.val; omega

/-- A weight block at (k, j) is the argument matrix at (j, k). -/
theorem wq_apply (c : Dev nD) (t : Fin cfg0.N) (k j : Fin 128) :
    iblk m c 1 t (ix2 k j) = m ((c : Thread nD τ).loc main_arg1) (ix2 j k) := by
  show V m c main_v0 (((cfg0.win 1).blk t).view.emb (ix2 k j)) = _
  rw [V_wq]
  refine Eq.trans (congrArg _ (funext fun a => Fin.ext ?_)) (transpose_ix2_apply _ transposes_S128x128_S128x128_1_0 k j)
  obtain ⟨-, -, -, -, e0, e1, -⟩ := idx_facts t
  match a with
  | ⟨0, _⟩ => show win0_1.index t (0 : Fin 2) * 128 + 1 * k.val = k.val; omega
  | ⟨1, _⟩ => show win0_1.index t (1 : Fin 2) * 128 + 1 * j.val = j.val; omega
theorem wk_apply (c : Dev nD) (t : Fin cfg0.N) (k j : Fin 128) :
    iblk m c 3 t (ix2 k j) = m ((c : Thread nD τ).loc main_arg3) (ix2 j k) := by
  show V m c main_v1 (((cfg0.win 3).blk t).view.emb (ix2 k j)) = _
  rw [V_wk]
  refine Eq.trans (congrArg _ (funext fun a => Fin.ext ?_)) (transpose_ix2_apply _ transposes_S128x128_S128x128_1_0 k j)
  obtain ⟨-, -, -, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * j.val = j.val; omega
theorem wv_apply (c : Dev nD) (t : Fin cfg0.N) (k j : Fin 128) :
    iblk m c 5 t (ix2 k j) = m ((c : Thread nD τ).loc main_arg5) (ix2 j k) := by
  show V m c main_v2 (((cfg0.win 5).blk t).view.emb (ix2 k j)) = _
  rw [V_wv]
  refine Eq.trans (congrArg _ (funext fun a => Fin.ext ?_)) (transpose_ix2_apply _ transposes_S128x128_S128x128_1_0 k j)
  obtain ⟨-, -, -, -, -, -, -, -, -, -, -, -, e0, e1, -⟩ := idx_facts t
  match a with
  | ⟨0, _⟩ => show win0_5.index t (0 : Fin 2) * 128 + 1 * k.val = k.val; omega
  | ⟨1, _⟩ => show win0_5.index t (1 : Fin 2) * 128 + 1 * j.val = j.val; omega
theorem wo_apply (c : Dev nD) (t : Fin cfg0.N) (k j : Fin 128) :
    iblk m c 7 t (ix2 k j) = m ((c : Thread nD τ).loc main_arg7) (ix2 j k) := by
  show V m c main_v3 (((cfg0.win 7).blk t).view.emb (ix2 k j)) = _
  rw [V_wo]
  refine Eq.trans (congrArg _ (funext fun a => Fin.ext ?_)) (transpose_ix2_apply _ transposes_S128x128_S128x128_1_0 k j)
  obtain ⟨-, -, -, -, -, -, -, -, -, -, -, -, -, -, -, -, e0, e1, -⟩ := idx_facts t
  match a with
  | ⟨0, _⟩ => show win0_7.index t (0 : Fin 2) * 128 + 1 * k.val = k.val; omega
  | ⟨1, _⟩ => show win0_7.index t (1 : Fin 2) * 128 + 1 * j.val = j.val; omega

/-- A bias block at (0, j) is the argument vector at j. -/
theorem bq_apply (c : Dev nD) (t : Fin cfg0.N) (j : Fin 128) :
    iblk m c 2 t (ix2 (0 : Fin 1) j) = m ((c : Thread nD τ).loc main_arg2) (ix1 j) := by
  show V m c main_v4 (((cfg0.win 2).blk t).view.emb (ix2 (0 : Fin 1) j)) = _
  rw [V_bq]
  refine Eq.trans (congrArg _ (funext fun a => Fin.ext ?_)) (shapeCast_a_1a_apply _ shapeCasts_S128_S1x128 (0 : Fin 1) j)
  obtain ⟨-, -, -, -, -, -, e0, e1, -⟩ := idx_facts t
  match a with
  | ⟨0, _⟩ => show win0_2.index t (0 : Fin 2) * 1 + 1 * 0 = 0; omega
  | ⟨1, _⟩ => show win0_2.index t (1 : Fin 2) * 128 + 1 * j.val = j.val; omega
theorem bk_apply (c : Dev nD) (t : Fin cfg0.N) (j : Fin 128) :
    iblk m c 4 t (ix2 (0 : Fin 1) j) = m ((c : Thread nD τ).loc main_arg4) (ix1 j) := by
  show V m c main_v5 (((cfg0.win 4).blk t).view.emb (ix2 (0 : Fin 1) j)) = _
  rw [V_bk]
  refine Eq.trans (congrArg _ (funext fun a => Fin.ext ?_)) (shapeCast_a_1a_apply _ shapeCasts_S128_S1x128 (0 : Fin 1) j)
  obtain ⟨-, -, -, -, -, -, -, -, -, -, e0, e1, -⟩ := idx_facts t
  match a with
  | ⟨0, _⟩ => show win0_4.index t (0 : Fin 2) * 1 + 1 * 0 = 0; omega
  | ⟨1, _⟩ => show win0_4.index t (1 : Fin 2) * 128 + 1 * j.val = j.val; omega
theorem bv_apply (c : Dev nD) (t : Fin cfg0.N) (j : Fin 128) :
    iblk m c 6 t (ix2 (0 : Fin 1) j) = m ((c : Thread nD τ).loc main_arg6) (ix1 j) := by
  show V m c main_v6 (((cfg0.win 6).blk t).view.emb (ix2 (0 : Fin 1) j)) = _
  rw [V_bv]
  refine Eq.trans (congrArg _ (funext fun a => Fin.ext ?_)) (shapeCast_a_1a_apply _ shapeCasts_S128_S1x128 (0 : Fin 1) j)
  obtain ⟨-, -, -, -, -, -, -, -, -, -, -, -, -, -, e0, e1, -⟩ := idx_facts t
  match a with
  | ⟨0, _⟩ => show win0_6.index t (0 : Fin 2) * 1 + 1 * 0 = 0; omega
  | ⟨1, _⟩ => show win0_6.index t (1 : Fin 2) * 128 + 1 * j.val = j.val; omega
theorem bo_apply (c : Dev nD) (t : Fin cfg0.N) (j : Fin 128) :
    iblk m c 8 t (ix2 (0 : Fin 1) j) = m ((c : Thread nD τ).loc main_arg8) (ix1 j) := by
  show V m c main_v7 (((cfg0.win 8).blk t).view.emb (ix2 (0 : Fin 1) j)) = _
  rw [V_bo]
  refine Eq.trans (congrArg _ (funext fun a => Fin.ext ?_)) (shapeCast_a_1a_apply _ shapeCasts_S128_S1x128 (0 : Fin 1) j)
  obtain ⟨-, -, -, -, -, -, -, -, -, -, -, -, -, -, -, -, -, -, e0, e1⟩ := idx_facts t
  match a with
  | ⟨0, _⟩ => show win0_8.index t (0 : Fin 2) * 1 + 1 * 0 = 0; omega
  | ⟨1, _⟩ => show win0_8.index t (1 : Fin 2) * 128 + 1 * j.val = j.val; omega

/-! ## What a point writes back, the cover, the array -/

/-- What point t writes back is block t of the whole-array function. -/
theorem flushed_eq (c : Dev nD) (t : Fin cfg0.N) :
    (dats m 0 c).flushed 9 t = ((cfg0.win 9).blk t).view.read (Elt Ideal) (Gk m c) := by
  rw [Value.flushed9]
  unfold out0_9
  rw [View.canon_unit_zero hz]
  simp only [View.ld_unit_zero (S := S2048x128) hz, View.ld_unit_zero (S := S128x128) hz, View.ld_unit_zero (S := S1x128) hz]
  funext y
  obtain ⟨r, j, rfl⟩ : ∃ (r : Fin 2048) (j : Fin 128), y = ix2 r j := ⟨y 0, y 1, eq_ix2 y⟩
  have ht : t.val < 256 := t.isLt
  have hr : t.val * 2048 + r.val < 524288 := by have := r.isLt; omega
  obtain ⟨-, -, e0, e1, -⟩ := idx_facts t
  have hemb : ((cfg0.win 9).blk t).view.emb (ix2 r j) = ix2 (⟨t.val * 2048 + r.val, hr⟩ : Fin 524288) j :=
    funext fun a => Fin.ext (by
      match a with
      | ⟨0, _⟩ => show win0_9.index t (0 : Fin 2) * 2048 + 1 * r.val = t.val * 2048 + r.val; omega
      | ⟨1, _⟩ => show win0_9.index t (1 : Fin 2) * 128 + 1 * j.val = j.val; omega)
  show k0_pay1 (F := Ideal) (k0_pay3 (iblk m c 7 t)) (k0_pay4 (iblk m c 0 t) (iblk m c 5 t) (iblk m c 6 t))
      (k0_pay5 (iblk m c 0 t) (iblk m c 1 t) (iblk m c 3 t) (iblk m c 2 t) (iblk m c 4 t)) (iblk m c 8 t) (ix2 r j)
    = Gk m c (((cfg0.win 9).blk t).view.emb (ix2 r j))
  rw [hemb]
  unfold Gk
  rw [G_apply]
  refine (RowValue.body_eq (iblk m c 0 t) (iblk m c 1 t) (iblk m c 2 t) (iblk m c 3 t) (iblk m c 4 t) (iblk m c 5 t)
    (iblk m c 6 t) (iblk m c 7 t) (iblk m c 8 t) r j).trans ?_
  simp only [xblk_apply m c t r _ hr, wq_apply, wk_apply, wv_apply, wo_apply, bq_apply, bk_apply, bv_apply, bo_apply]

/-- An index of the result array is in point t's block iff each coordinate is in the block's range. -/
theorem mem_blk (t : Fin cfg0.N) (i : S524288x128.Idx) :
    i ∈ ((cfg0.win 9).blk t).view.set ↔ ∀ a : Fin 2, win0_9.index t a * S2048x128.size a ≤ (i a).val
      ∧ (i a).val < win0_9.index t a * S2048x128.size a + S2048x128.size a := by
  show i ∈ ((View.whole main_v8).slice (win0_9.rect t)).set ↔ _
  rw [View.set_slice_whole, Rect.mem_set_unit]
  exact Iff.rfl

/-- Every index of the result array lies in the block of the point its row falls in. -/
theorem cover (i : S524288x128.Idx) :
    ∃ t : Fin cfg0.N, (cfg0.win 9).flush t = true ∧ i ∈ ((cfg0.win 9).blk t).view.set := by
  have hi0 : (i 0).val < 524288 := (i 0).isLt
  have hi1 : (i 1).val < 128 := (i 1).isLt
  obtain ⟨t, ht⟩ : ∃ t : Fin cfg0.N, t.val = (i 0).val / 2048 :=
    ⟨⟨(i 0).val / 2048, by show (i 0).val / 2048 < 256; omega⟩, rfl⟩
  obtain ⟨-, -, e0, e1, -⟩ := idx_facts t
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 128 ≤ (i 1).val ∧ (i 1).val < win0_9.index t (1 : Fin 2) * 128 + 128; omega

/-- The result array after the run is the whole-array function of the arguments. -/
theorem final (c : Dev nD) : (dats m 0 c).arrAt 9 cfg0.N = Gk m c :=
  (dats m 0 c).arrAt_eq_of_cover 9 (Gk m c) (fun t _ => flushed_eq m c t) cover

/-- The kernel's run: the result array ends at the whole-array function, the arguments unchanged. -/
theorem run : θ_run defs (onTc (τ := τ) (main (F := Ideal))) ⟨m, fun _ => 0, ρ⟩ fun r => ∀ c : Dev nD,
      r.2.mem ((c : Thread nD τ).loc main_v8) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.ArrayValue
end
-- ==== Proof.RefRow.lean ====
/-
  The reference's result at one entry, at the ideal values: at (n, j) it is the row function of row n of x, with the
  raw scores divided by √16. Each stage of the reference is read at an index from the stage before it; what is
  written here is which index each layout step reads (a transposed weight at (k, j) is the weight at (j, k); the
  [N, 8, 16] view at (n, g, d) is feature 16g + d of row n; …) and that the stages compose to the row function.
-/
import proofs.«132842_j37237366456674_1_alg».proof.Proof.Gen.ReferenceIdeal.Read
import proofs.«132842_j37237366456674_1_alg».proof.Proof.RowSpec

noncomputable section
namespace Cert.ReferenceIdeal.RowValue
open Cert.ReferenceIdeal Cert.ReferenceIdeal.Gen Cert.ReferenceIdeal.Read Idealize.ShloMosaic Idealize.ShloMosaic.ValueIdx
  Cert.LibStack Cert.RowSpec

/-! ## Which index each layout step reads -/

section Indices
variable (n : Fin 524288) (j k : Fin 128) (u : Fin 1) (d e : Fin 16) (g : Fin 8)

-- the four affine maps: the row of x, the transposed weight, the bias broadcast over the rows
theorem l1 : lidx_main_v1 (ix2 n j) k = ix2 n k := funext fun a => Fin.ext (by match a with | ⟨0, _⟩ => rfl | ⟨1, _⟩ => rfl)
theorem r1 : ridx_main_v1 (ix2 n j) k = ix2 k j := funext fun a => Fin.ext (by match a with | ⟨0, _⟩ => rfl | ⟨1, _⟩ => rfl)
theorem t0 : idx_main_v0 (ix2 k j) = ix2 j k := funext fun a => Fin.ext (by match a with | ⟨0, _⟩ => rfl | ⟨1, _⟩ => rfl)
theorem b3 : idx_main_v3 (ix2 n j) = ix2 (0 : Fin 1) j := funext fun a => Fin.ext (by match a with | ⟨0, _⟩ => rfl | ⟨1, _⟩ => rfl)
theorem b2 : idx_main_v2 (ix2 u j) = ix1 j := funext fun a => Fin.ext (by match a with | ⟨0, _⟩ => rfl)
theorem l6 : lidx_main_v6 (ix2 n j) k = ix2 n k := funext fun a => Fin.ext (by match a with | ⟨0, _⟩ => rfl | ⟨1, _⟩ => rfl)
theorem r6 : ridx_main_v6 (ix2 n j) k = ix2 k j := funext fun a => Fin.ext (by match a with | ⟨0, _⟩ => rfl | ⟨1, _⟩ => rfl)
theorem t5 : idx_main_v5 (ix2 k j) = ix2 j k := funext fun a => Fin.ext (by match a with | ⟨0, _⟩ => rfl | ⟨1, _⟩ => rfl)
theorem b8 : idx_main_v8 (ix2 n j) = ix2 (0 : Fin 1) j := funext fun a => Fin.ext (by match a with | ⟨0, _⟩ => rfl | ⟨1, _⟩ => rfl)
theorem b7 : idx_main_v7 (ix2 u j) = ix1 j := funext fun a => Fin.ext (by match a with | ⟨0, _⟩ => rfl)
theorem l11 : lidx_main_v11 (ix2 n j) k = ix2 n k := funext fun a => Fin.ext (by match a with | ⟨0, _⟩ => rfl | ⟨1, _⟩ => rfl)
theorem r11 : ridx_main_v11 (ix2 n j) k = ix2 k j := funext fun a => Fin.ext (by match a with | ⟨0, _⟩ => rfl | ⟨1, _⟩ => rfl)
theorem t10 : idx_main_v10 (ix2 k j) = ix2 j k := funext fun a => Fin.ext (by match a with | ⟨0, _⟩ => rfl | ⟨1, _⟩ => rfl)
theorem b13 : idx_main_v13 (ix2 n j) = ix2 (0 : Fin 1) j := funext fun a => Fin.ext (by match a with | ⟨0, _⟩ => rfl | ⟨1, _⟩ => rfl)
theorem b12 : idx_main_v12 (ix2 u j) = ix1 j := funext fun a => Fin.ext (by match a with | ⟨0, _⟩ => rfl)
theorem l40 : lidx_main_v40 (ix2 n j) k = ix2 n k := funext fun a => Fin.ext (by match a with | ⟨0, _⟩ => rfl | ⟨1, _⟩ => rfl)
theorem r40 : ridx_main_v40 (ix2 n j) k = ix2 k j := funext fun a => Fin.ext (by match a with | ⟨0, _⟩ => rfl | ⟨1, _⟩ => rfl)
theorem t39 : idx_main_v39 (ix2 k j) = ix2 j k := funext fun a => Fin.ext (by match a with | ⟨0, _⟩ => rfl | ⟨1, _⟩ => rfl)
theorem b42 : idx_main_v42 (ix2 n j) = ix2 (0 : Fin 1) j := funext fun a => Fin.ext (by match a with | ⟨0, _⟩ => rfl | ⟨1, _⟩ => rfl)
theorem b41 : idx_main_v41 (ix2 u j) = ix1 j := funext fun a => Fin.ext (by match a with | ⟨0, _⟩ => rfl)

-- the [N, 8, 16] view of a row: (n, g, d) is feature 16 g + d
theorem s15 : idx_main_v15 (ix3 n g d) = ix2 n (gd g d) := funext fun a => Fin.ext (by
  have := g.isLt; have := d.isLt
  match a with
  | ⟨0, _⟩ => show ((n.val * 8 + g.val) * 16 + d.val) / 128 = n.val; omega
  | ⟨1, _⟩ => show ((n.val * 8 + g.val) * 16 + d.val) % 128 = g.val * 16 + d.val; omega)
theorem s17 : idx_main_v17 (ix3 n g d) = ix2 n (gd g d) := funext fun a => Fin.ext (by
  have := g.isLt; have := d.isLt
  match a with
  | ⟨0, _⟩ => show ((n.val * 8 + g.val) * 16 + d.val) / 128 = n.val; omega
  | ⟨1, _⟩ => show ((n.val * 8 + g.val) * 16 + d.val) % 128 = g.val * 16 + d.val; omega)
theorem s19 : idx_main_v19 (ix3 n g d) = ix2 n (gd g d) := funext fun a => Fin.ext (by
  have := g.isLt; have := d.isLt
  match a with
  | ⟨0, _⟩ => show ((n.val * 8 + g.val) * 16 + d.val) / 128 = n.val; omega
  | ⟨1, _⟩ => show ((n.val * 8 + g.val) * 16 + d.val) % 128 = g.val * 16 + d.val; omega)
-- the per-row transpositions
theorem t16 : idx_main_v16 (ix3 n d g) = ix3 n g d := funext fun a => Fin.ext (by match a with | ⟨0, _⟩ => rfl | ⟨1, _⟩ => rfl | ⟨2, _⟩ => rfl)
theorem t18 : idx_main_v18 (ix3 n d g) = ix3 n g d := funext fun a => Fin.ext (by match a with | ⟨0, _⟩ => rfl | ⟨1, _⟩ => rfl | ⟨2, _⟩ => rfl)
theorem t20 : idx_main_v20 (ix3 n d g) = ix3 n g d := funext fun a => Fin.ext (by match a with | ⟨0, _⟩ => rfl | ⟨1, _⟩ => rfl | ⟨2, _⟩ => rfl)
theorem t37 : idx_main_v37 (ix3 n g d) = ix3 n d g := funext fun a => Fin.ext (by match a with | ⟨0, _⟩ => rfl | ⟨1, _⟩ => rfl | ⟨2, _⟩ => rfl)
-- the score product contracts the groups, the mixing product the coordinates
theorem l21 : lidx_main_v21 (ix3 n d e) g = ix3 n d g := funext fun a => Fin.ext (by match a with | ⟨0, _⟩ => rfl | ⟨1, _⟩ => rfl | ⟨2, _⟩ => rfl)
theorem r21 : ridx_main_v21 (ix3 n d e) g = ix3 n e g := funext fun a => Fin.ext (by match a with | ⟨0, _⟩ => rfl | ⟨1, _⟩ => rfl | ⟨2, _⟩ => rfl)
theorem l36 : lidx_main_v36 (ix3 n d g) e = ix3 n d e := funext fun a => Fin.ext (by match a with | ⟨0, _⟩ => rfl | ⟨1, _⟩ => rfl | ⟨2, _⟩ => rfl)
theorem r36 : ridx_main_v36 (ix3 n d g) e = ix3 n e g := funext fun a => Fin.ext (by match a with | ⟨0, _⟩ => rfl | ⟨1, _⟩ => rfl | ⟨2, _⟩ => rfl)
-- a per-(n, d) value broadcast along the last axis, and the reduced index with a coordinate put back
theorem b28 : idx_main_v28 (ix3 n d u) = ix2 n d := funext fun a => Fin.ext (by match a with | ⟨0, _⟩ => rfl | ⟨1, _⟩ => rfl)
theorem b29 : idx_main_v29 (ix3 n d e) = ix3 n d (0 : Fin 1) := funext fun a => Fin.ext (by match a with | ⟨0, _⟩ => rfl | ⟨1, _⟩ => rfl | ⟨2, _⟩ => rfl)
theorem b33 : idx_main_v33 (ix3 n d u) = ix2 n d := funext fun a => Fin.ext (by match a with | ⟨0, _⟩ => rfl | ⟨1, _⟩ => rfl)
theorem b34 : idx_main_v34 (ix3 n d e) = ix3 n d (0 : Fin 1) := funext fun a => Fin.ext (by match a with | ⟨0, _⟩ => rfl | ⟨1, _⟩ => rfl | ⟨2, _⟩ => rfl)
theorem s32 : idx_main_v32 (ix2 n d) e = ix3 n d e := funext fun a => Fin.ext (by match a with | ⟨0, _⟩ => rfl | ⟨1, _⟩ => rfl | ⟨2, _⟩ => rfl)
-- the [N, 128] view of the mixed stack: feature k is (group of k, coordinate of k)
theorem s38 : idx_main_v38 (ix2 n k) = ix3 n (grp k) (crd k) := funext fun a => Fin.ext (by
  have := k.isLt
  match a with
  | ⟨0, _⟩ => show (n.val * 128 + k.val) / 128 = n.val; omega
  | ⟨1, _⟩ => show (n.val * 128 + k.val) / 16 % 8 = k.val / 16; omega
  | ⟨2, _⟩ => show (n.val * 128 + k.val) % 16 = k.val % 16; omega)

end Indices

/-! ## The stages -/

variable (x0 : FVec Ideal S524288x128 .f32) (x1 x3 x5 x7 : FVec Ideal S128x128 .f32) (x2 x4 x6 x8 : FVec Ideal S128 .f32)

/-- The three affine images of row n, at feature j. -/
theorem q_eq (n : Fin 524288) (j : Fin 128) :
    val_main_v4 (F := Ideal) x0 x1 x2 (ix2 n j)
      = lin (fun k => x0 (ix2 n k)) (fun j k => x1 (ix2 j k)) (fun j => x2 (ix1 j)) j := by
  unfold lin
  simp only [val_main_v4_apply, val_main_v1_apply, val_main_v0_apply, val_main_v3_apply, val_main_v2_apply, Ideal.addf_def,
    l1, r1, t0, b3, b2]

theorem k_eq (n : Fin 524288) (j : Fin 128) :
    val_main_v9 (F := Ideal) x0 x3 x4 (ix2 n j)
      = lin (fun k => x0 (ix2 n k)) (fun j k => x3 (ix2 j k)) (fun j => x4 (ix1 j)) j := by
  unfold lin
  simp only [val_main_v9_apply, val_main_v6_apply, val_main_v5_apply, val_main_v8_apply, val_main_v7_apply, Ideal.addf_def,
    l6, r6, t5, b8, b7]

theorem v_eq (n : Fin 524288) (j : Fin 128) :
    val_main_v14 (F := Ideal) x0 x5 x6 (ix2 n j)
      = lin (fun k => x0 (ix2 n k)) (fun j k => x5 (ix2 j k)) (fun j => x6 (ix1 j)) j := by
  unfold lin
  simp only [val_main_v14_apply, val_main_v11_apply, val_main_v10_apply, val_main_v13_apply, val_main_v12_apply, Ideal.addf_def,
    l11, r11, t10, b13, b12]

/-- The scaled scores: at (n, d, e), the raw score of the first two affine images divided by √16. -/
theorem s_eq (n : Fin 524288) (d e : Fin 16) :
    val_main_v24 (F := Ideal) x0 x1 x2 x3 x4 (ix3 n d e)
      = scaleDiv (dots (lin (fun k => x0 (ix2 n k)) (fun j k => x1 (ix2 j k)) (fun j => x2 (ix1 j)))
          (lin (fun k => x0 (ix2 n k)) (fun j k => x3 (ix2 j k)) (fun j => x4 (ix1 j))) d e) := by
  unfold scaleDiv dots
  simp only [val_main_v24_apply, val_main_v21_apply, val_main_v16_apply, val_main_v15_apply, val_main_v18_apply,
    val_main_v17_apply, val_main_v23_apply, val_main_v22_apply, val_main_cst_apply, Ideal.hostDivf_def,
    Ideal.hostUnary_sqrt_def, Ideal.ofBits_def, l21, r21, t16, s15, t18, s17, q_eq, k_eq]

/-- The values laid out for the mixing product: at (n, e, g), the third affine image at feature 16g + e. -/
theorem v_at (n : Fin 524288) (e : Fin 16) (g : Fin 8) :
    val_main_v20 (F := Ideal) x0 x5 x6 (ix3 n e g)
      = lin (fun k => x0 (ix2 n k)) (fun j k => x5 (ix2 j k)) (fun j => x6 (ix1 j)) (gd g e) := by
  simp only [val_main_v20_apply, val_main_v19_apply, t20, s19, v_eq]

/-- The maximum of the 16 scaled scores of (n, d), folded from −∞. -/
theorem rowMax_eq (n : Fin 524288) (d : Fin 16) :
    val_main_v25 (F := Ideal) x0 x1 x2 x3 x4 (ix2 n d)
      = (Finset.univ : Finset (Fin 16)).fold max negInf (fun e => val_main_v24 (F := Ideal) x0 x1 x2 x3 x4 (ix3 n d e)) := by
  unfold val_main_v25
  exact hostReduceMax_last (val_main_v24 (F := Ideal) x0 x1 x2 x3 x4) (val_main_cst_0 (F := Ideal))
    reducesTo_S524288x16x16_S524288x16_d2 (by decide) h_S_ n d

/-- The maximum of (n, d), broadcast back along the scores: at (n, d, e) it is the maximum of the 16 scores of (n, d). -/
theorem mx_eq (n : Fin 524288) (d e : Fin 16) :
    val_main_v29 (F := Ideal) x0 x1 x2 x3 x4 (ix3 n d e)
      = rmax (fun e' => val_main_v24 (F := Ideal) x0 x1 x2 x3 x4 (ix3 n d e')) := by
  rw [val_main_v29_apply, b29, val_main_v28_apply, b28, val_main_v27_apply, val_main_v26_apply, val_main_cst_1_apply, rowMax_eq]
  rfl

/-- The shifted exponential of score (n, d, e). -/
theorem pe_eq (n : Fin 524288) (d e : Fin 16) :
    val_main_v31 (F := Ideal) x0 x1 x2 x3 x4 (ix3 n d e)
      = pexp (fun e' => val_main_v24 (F := Ideal) x0 x1 x2 x3 x4 (ix3 n d e')) e := by
  rw [val_main_v31_apply, val_main_v30_apply, mx_eq]
  rfl

/-- The softmax denominator of (n, d), broadcast back: the sum of the 16 shifted exponentials. -/
theorem dn_eq (n : Fin 524288) (d e : Fin 16) :
    val_main_v34 (F := Ideal) x0 x1 x2 x3 x4 (ix3 n d e)
      = ∑ e' : Fin 16, pexp (fun e'' => val_main_v24 (F := Ideal) x0 x1 x2 x3 x4 (ix3 n d e'')) e' := by
  rw [val_main_v34_apply, b34, val_main_v33_apply, b33, val_main_v32_apply, val_main_cst_2_apply]
  refine Eq.trans (congrArg₂ (· + ·) Ideal.ofBits_zero_f32 (Finset.sum_congr rfl fun e' _ => ?_)) (zero_add _)
  rw [s32, pe_eq]

/-- The softmax weights: at (n, d, e), the softmax of the 16 scaled scores of (n, d). -/
theorem a_eq (n : Fin 524288) (d e : Fin 16) :
    val_main_v35 (F := Ideal) x0 x1 x2 x3 x4 (ix3 n d e)
      = soft (fun e' => val_main_v24 (F := Ideal) x0 x1 x2 x3 x4 (ix3 n d e')) e := by
  rw [val_main_v35_apply, pe_eq, dn_eq]
  rfl

/-- The mixed row: at (n, k), the softmax weights of k's coordinate against the values of k's group. -/
theorem m_eq (n : Fin 524288) (k : Fin 128) :
    val_main_v38 (F := Ideal) x0 x1 x2 x3 x4 x5 x6 (ix2 n k)
      = mixv (fun d => soft (fun e => scaleDiv (dots (lin (fun k => x0 (ix2 n k)) (fun j k => x1 (ix2 j k)) (fun j => x2 (ix1 j)))
          (lin (fun k => x0 (ix2 n k)) (fun j k => x3 (ix2 j k)) (fun j => x4 (ix1 j))) d e)))
          (lin (fun k => x0 (ix2 n k)) (fun j k => x5 (ix2 j k)) (fun j => x6 (ix1 j))) k := by
  unfold mixv
  simp only [val_main_v38_apply, val_main_v37_apply, val_main_v36_apply, s38, t37, l36, r36, a_eq, s_eq, v_at]

/-- The reference's result at (n, j) is the row function of row n of x, the scores divided by √16. -/
theorem out_eq (n : Fin 524288) (j : Fin 128) :
    val_main_v43 (F := Ideal) x0 x1 x2 x3 x4 x5 x6 x7 x8 (ix2 n j)
      = row scaleDiv (fun k => x0 (ix2 n k)) (fun j k => x1 (ix2 j k)) (fun j => x2 (ix1 j)) (fun j k => x3 (ix2 j k))
          (fun j => x4 (ix1 j)) (fun j k => x5 (ix2 j k)) (fun j => x6 (ix1 j)) (fun j k => x7 (ix2 j k))
          (fun j => x8 (ix1 j)) j := by
  rw [val_main_v43_apply, val_main_v40_apply, val_main_v42_apply, b42, val_main_v41_apply, b41]
  refine congrArg₂ (· + ·) (Finset.sum_congr rfl fun k _ => ?_) rfl
  rw [l40, r40, val_main_v39_apply, t39, m_eq]

/-- The reference's whole result is the same whole-array function as the kernel's: dividing by √16 is multiplying by ¼. -/
theorem result_eq : val_main_v43 (F := Ideal) x0 x1 x2 x3 x4 x5 x6 x7 x8 = G scaleMul x0 x1 x2 x3 x4 x5 x6 x7 x8 := by
  funext i
  obtain ⟨n, j, rfl⟩ : ∃ (n : Fin 524288) (j : Fin 128), i = ix2 n j := ⟨i 0, i 1, eq_ix2 i⟩
  rw [out_eq, G_apply, scale_eq]

end Cert.ReferenceIdeal.RowValue
end
-- ==== Proof.lean ====
/-
  The kernel and its reference compute the same array over the extended reals.

  Both take a matrix x of 524288 rows of 128 features and four 128×128 weight matrices with their biases. Row by
  row, both form q = x·Wqᵀ + bq, k = x·Wkᵀ + bk, v = x·Wvᵀ + bv, view the 128 features as 8 groups of 16
  coordinates, take for coordinates d, e the score ∑_g q(16g+d)·k(16g+e), scale it, apply a softmax over e (shifted by
  the maximum), mix ∑ₑ softmax(d,e)·v(16g+e) back into 128 features and apply the last affine map by Wo, bo. The
  kernel does this on blocks of 2048 rows with the weights transposed once on the host; no row depends on another,
  so block t of the kernel's result is rows 2048·t … of the one whole-array function `G` (Proof/KernelArray.lean over
  Proof/KernelRow.lean), and the 256 blocks cover the array. The reference computes the same function of the whole
  arrays (Proof/RefRow.lean). The only arithmetic difference is the scaling of the scores: the kernel multiplies by
  the constant ¼, the reference divides by √16 = 4; on the extended reals these are one function, infinities included
  (Proof/RowSpec.lean, `scale_eq`), so no finiteness of the inputs is used. Every sum is a finite sum in a commutative
  monoid, so neither the blocking nor the order of any contraction matters.

  The three frames are the generated ones (the reference's is its run with the result dropped); the idealization
  rewrote nothing, so `preserves` is trivial.
-/
import proofs.«132842_j37237366456674_1_alg».proof.Defs
import proofs.«132842_j37237366456674_1_alg».proof.Proof.Gen.Kernel
import proofs.«132842_j37237366456674_1_alg».proof.Proof.Gen.Kernel.Skeleton
import proofs.«132842_j37237366456674_1_alg».proof.Proof.Gen.Kernel.Launch
import proofs.«132842_j37237366456674_1_alg».proof.Proof.Gen.Kernel.Points
import proofs.«132842_j37237366456674_1_alg».proof.Proof.Gen.Kernel.Frame
import proofs.«132842_j37237366456674_1_alg».proof.Proof.Gen.KernelIdeal
import proofs.«132842_j37237366456674_1_alg».proof.Proof.Gen.KernelIdeal.Skeleton
import proofs.«132842_j37237366456674_1_alg».proof.Proof.Gen.KernelIdeal.Launch
import proofs.«132842_j37237366456674_1_alg».proof.Proof.Gen.KernelIdeal.Points
import proofs.«132842_j37237366456674_1_alg».proof.Proof.Gen.KernelIdeal.Frame
import proofs.«132842_j37237366456674_1_alg».proof.Proof.Gen.ReferenceIdeal
import proofs.«132842_j37237366456674_1_alg».proof.Proof.Gen.Pre_finite_inputs
import proofs.«132842_j37237366456674_1_alg».proof.Proof.Gen.KernelIdeal.Value
import proofs.«132842_j37237366456674_1_alg».proof.Proof.Gen.ReferenceIdeal.Run
import proofs.«132842_j37237366456674_1_alg».proof.Proof.Gen.ReferenceIdeal.Read
import proofs.«132842_j37237366456674_1_alg».proof.Proof.KernelArray
import proofs.«132842_j37237366456674_1_alg».proof.Proof.RefRow
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments, the kernel's result array and the reference's both end at the one
    whole-array function of the arguments. -/
theorem algebraic : Cert.algebraic_KernelIdeal_ReferenceIdeal := by
  intro m ρ m' ρ' _ hagree
  refine ⟨fun c => Cert.KernelIdeal.ArrayValue.Gk m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RowValue.result_eq]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
